-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64x64 : Shape := ⟨2, ![64, 64]⟩
abbrev S64x2048 : Shape := ⟨2, ![64, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x64 : S_.BroadcastsInDim S2048x64 (![] : Fin 0 → Fin S2048x64.rank)
  reducesTo_S2048x64_S_d0_1 : S2048x64.ReducesTo [0, 1] S_
  bcast_S_S64x64 : S_.BroadcastsInDim S64x64 (![] : Fin 0 → Fin S64x64.rank)
  reducesTo_S64x64_S_d0_1 : S64x64.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg4 : FVec F S64x64 .f32) (main_arg5 : FVec F S64x64 .f32) (main_arg6 : FVec F S64x2048 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x2048 .f32 := Host.absf main_arg6
  let main_cst_10 : FVec F S_ .f32 := constant S_ .f32 0x7F800000#32
  let main_v30 : FVec F S64x2048 .f32 := broadcastInDim S64x2048 ![] bcast_S_S64x2048 main_cst_10
  let main_v31 : IVec S64x2048 1 := cmpf .olt main_v29 main_v30
  let main_c_11 : IVec S_ 1 := constantI S_ 1 1#1
  let main_v32 : IVec S_ 1 := (fun x v => Host.reduce IntOp.andi x v reducesTo_S64x2048_S_d0_1 h_S_) main_v31 main_c_11
  let main_v33 : IVec S_ 1 := andi main_v28 main_v32
  main_v33

def fn {F : FTy → Type} [FloatOps F] (main_arg0 : FVec F S4x2048x2048 .f32) (main_arg1 : FVec F S2048x2048 .f32) (main_arg2 : FVec F S2048 .f32) (main_arg3 : FVec F S2048x64 .f32) (main_arg4 : FVec F S64x64 .f32) (main_arg5 : FVec F S64x64 .f32) (main_arg6 : FVec F S64x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_arg5 main_arg6 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64x64 : Shape := ⟨2, ![64, 64]⟩
abbrev S64x2048 : Shape := ⟨2, ![64, 2048]⟩
abbrev S512x64 : Shape := ⟨2, ![512, 64]⟩
abbrev S512x2048 : Shape := ⟨2, ![512, 2048]⟩
abbrev S8192x2048 : Shape := ⟨2, ![8192, 2048]⟩
abbrev S1x2048 : Shape := ⟨2, ![1, 2048]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x64, .f32⟩
  | .hbm, ⟨4, _⟩ => ⟨S64x64, .f32⟩
  | .hbm, ⟨5, _⟩ => ⟨S64x64, .f32⟩
  | .hbm, ⟨6, _⟩ => ⟨S64x2048, .f32⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S4x2048x2048, .f32⟩
  | .local _ .vmem, ⟨0, _⟩ => ⟨S512x64, .f32⟩
  | .local _ .vmem, ⟨1, _⟩ => ⟨S512x64, .f32⟩
  | .local _ .vmem, ⟨2, _⟩ => ⟨S64x64, .f32⟩
  | .local _ .vmem, ⟨3, _⟩ => ⟨S64x64, .f32⟩
  | .local _ .vmem, ⟨4, _⟩ => ⟨S64x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S2048x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x2048_S64x2048_0_0 : ∀ a, (![0, 0] : Fin 2 → Nat) a + S64x2048.size a ≤ S64x2048.size a
  h_S64x2048 : 0 < S64x2048.numel
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  shapeCasts_S4x2048x2048_S8192x2048 : S4x2048x2048.ShapeCasts S8192x2048
  shapeCasts_S2048_S1x2048 : S2048.ShapeCasts S1x2048
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x64_S64x64_S512x64_1_0_0_1_n_n_wf : DotDims.WF S512x64 S64x64 S512x64 [1] [0] [0] [1] [] []
  dot_S512x64_S64x2048_S512x2048_1_0_0_1_n_n_wf : DotDims.WF S512x64 S64x2048 S512x2048 [1] [0] [0] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .f32 = 32 ∨ (Rect.block (s := S64x2048) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S2048x2048.size a
  hwx0_4 : ∀ i : grid0.Coords, EltTy.bits .f32 = 32 ∨ (Rect.block (s := S2048x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S2048x2048.size a
  hwx0_5 : ∀ i : grid0.Coords, EltTy.bits .bf16 = 32 ∨ (Rect.block (s := S2048x2048) S512x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg3) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64x64 : Shape := ⟨2, ![64, 64]⟩
abbrev S64x2048 : Shape := ⟨2, ![64, 2048]⟩
abbrev S1x1x2048 : Shape := ⟨3, ![1, 1, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x64, .f32⟩
  | .hbm, ⟨4, _⟩ => ⟨S64x64, .f32⟩
  | .hbm, ⟨5, _⟩ => ⟨S64x64, .f32⟩
  | .hbm, ⟨6, _⟩ => ⟨S64x2048, .f32⟩
  | .hbm, ⟨7, _⟩ => ⟨S4x2048x2048, .f32⟩
  | .hbm, ⟨8, _⟩ => ⟨S1x1x2048, .f32⟩
  | .hbm, ⟨9, _⟩ => ⟨S4x2048x2048, .f32⟩
  | .hbm, ⟨10, _⟩ => ⟨S4x2048x2048, .f32⟩
  | .hbm, ⟨11, _⟩ => ⟨S2048x64, .f32⟩
  | .hbm, ⟨12, _⟩ => ⟨S2048x64, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S4x2048x2048, .f32⟩
  | .hbm, ⟨18, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S2048x2048 : S_.BroadcastsInDim S2048x2048 (![] : Fin 0 → Fin S2048x2048.rank)
  dot_S4x2048x2048_S2048x2048_S4x2048x2048_2_1_01_0_n_n_wf : DotDims.WF S4x2048x2048 S2048x2048 S4x2048x2048 [2] [1] [0, 1] [0] [] []
  dot_S2048x64_S64x64_S2048x64_1_0_0_1_n_n_wf : DotDims.WF S2048x64 S64x64 S2048x64 [1] [0] [0] [1] [] []
  dot_S2048x64_S64x2048_S2048x2048_1_0_0_1_n_n_wf : DotDims.WF S2048x64 S64x2048 S2048x2048 [1] [0] [0] [1] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

class Facts : Prop extends Facts₀ where

variable [Facts]
-- ==== Proof.FiniteInputs.lean ====
import proofs.«155626_j76733885710753_1_alg».proof.Pre_finite_inputs
import Idealize.ShloMosaic.PureOps.Ideal
import Idealize.ShloMosaic.Lib.ReduceAll

/-!
  The finiteness precondition read back: it compares the absolute value of every entry of every
  input with +∞ and takes the conjunction of all the answers. If that conjunction is true, each
  entry has |x| < +∞, and an extended real with finite absolute value is a real number.
-/

namespace Cert.Finite
open Idealize.ShloMosaic

/-- An extended real whose absolute value, `max x (-x)`, lies strictly below `⊤` is a real number:
    at `⊤` the maximum is `⊤`, and at `⊥` the negation is `⊤`, so only the real case is left. -/
theorem real_of_abs_lt_top (x : EReal) (h : max x (-x) < ⊤) : ∃ r : ℝ, x = (r : EReal) := by
  induction x using EReal.rec with
  | bot => simp at h
  | coe r => exact ⟨r, rfl⟩
  | top => simp at h

/-- The bit pattern `0x7F800000` of the single-precision format denotes `+∞`. -/
theorem inf_word : Ideal.ofBits .f32 0x7F800000#32 = (⊤ : EReal) := by
  simp [Ideal.ofBits, Ideal.ieee]

/-- One entry: if the comparison `|x| < +∞` answers true, `x` is a real number. -/
theorem real_of_cmp (x : Ideal .f32)
    (h : FloatOps.cmpf .olt (FloatOps.hostAbsf x) (FloatOps.ofBits (F := Ideal) .f32 0x7F800000#32) = 1#1) :
    ∃ r : ℝ, (x : EReal) = (r : EReal) := by
  apply real_of_abs_lt_top
  -- the comparison is the decision of the strict order, packed into one bit
  have h' : BitVec.ofBool (decide (max (x : EReal) (-x) < Ideal.ofBits .f32 0x7F800000#32)) = 1#1 := h
  rw [inf_word] at h'
  -- were the inequality false, the bit would be 0
  by_contra hn
  rw [decide_eq_false hn] at h'
  exact absurd h' (by decide)

/-- The rank-0 shape has exactly one index. -/
instance : Subsingleton Cert.Pre_finite_inputs.S_.Idx := ⟨fun a b => funext fun d => d.elim0⟩

/-- One input of any shape: if the conjunction over all entries of `|x| < +∞` is true, every entry is real. -/
theorem real_of_all {s : Shape} {axes : List (Fin s.rank)}
    (bc : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (j : Cert.Pre_finite_inputs.S_.Idx)
    (h : Host.reduce IntOp.andi
          (cmpf .olt (Host.absf a)
            (broadcastInDim s ![] bc (constant (F := Ideal) Cert.Pre_finite_inputs.S_ .f32 0x7F800000#32)))
          (constantI Cert.Pre_finite_inputs.S_ 1 1#1) hr hu j = 1#1) :
    ∀ i, ∃ r : ℝ, (a i : EReal) = (r : EReal) := fun i =>
  real_of_cmp (a i) (Host.reduce_andi_all _ _ hr hu j h i)

/-- Under the finiteness precondition every entry of every input is a real number. -/
theorem real_of_pre [Cert.Pre_finite_inputs.Facts]
    (a0 : FVec Ideal Cert.Pre_finite_inputs.S4x2048x2048 .f32) (a1 : FVec Ideal Cert.Pre_finite_inputs.S2048x2048 .f32)
    (a2 : FVec Ideal Cert.Pre_finite_inputs.S2048 .f32) (a3 : FVec Ideal Cert.Pre_finite_inputs.S2048x64 .f32)
    (a4 : FVec Ideal Cert.Pre_finite_inputs.S64x64 .f32) (a5 : FVec Ideal Cert.Pre_finite_inputs.S64x64 .f32)
    (a6 : FVec Ideal Cert.Pre_finite_inputs.S64x2048 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  -- the predicate's value at its one index
  have h0 := congrFun h (fun d => d.elim0 : Cert.Pre_finite_inputs.S_.Idx)
  -- the predicate is a conjunction of seven answers, one per input, each a conjunction over that input's entries
  dsimp only [Cert.Pre_finite_inputs.fn, Cert.Pre_finite_inputs.fn_part1, Idealize.ShloMosaic.andi] at h0
  simp only [IntOp.andi_eq_one] at h0
  obtain ⟨⟨⟨⟨⟨⟨h0, h1⟩, h2⟩, h3⟩, h4⟩, h5⟩, h6⟩ := h0
  exact ⟨real_of_all _ _ _ a0 _ h0, real_of_all _ _ _ a1 _ h1, real_of_all _ _ _ a2 _ h2, real_of_all _ _ _ a3 _ h3,
    real_of_all _ _ _ a4 _ h4, real_of_all _ _ _ a5 _ h5, real_of_all _ _ _ a6 _ h6⟩

end Cert.Finite
-- ==== Proof.KernelDots.lean ====
/-
  The kernel's three matrix-unit products, read at an index over the extended reals: each is the sum, over the one
  contracted axis, of the left operand's entry times the right operand's entry. Two of them contract the left
  operand's columns with the right operand's rows (a 512-row tile times a 64 x 64 or a 64 x 2048 factor); the third
  contracts the columns of both operands (a 512-row tile of the activations against the rows of the 2048 x 2048 weight,
  that is, a product with the transposed weight).
-/
import proofs.«155626_j76733885710753_1_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic

/-! ## A 512 x 64 tile times a 64 x 64 factor: entry (p, q) sums tile (p, k) * factor (k, q) -/

theorem lhs_sq_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs_sq_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem rhs_sq_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem rhs_sq_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl
/-- Row `i 0`, column `k` of the tile. -/
abbrev lidx_sq (i : S512x64.Idx) (k : Fin 64) : S512x64.Idx := fun a => match a with
  | ⟨0, _⟩ => ⟨(i 0).val, (i 0).isLt⟩
  | ⟨1, _⟩ => ⟨k.val, k.isLt⟩
/-- Row `k`, column `i 1` of the factor. -/
abbrev ridx_sq (i : S512x64.Idx) (k : Fin 64) : S64x64.Idx := fun a => match a with
  | ⟨0, _⟩ => ⟨k.val, k.isLt⟩
  | ⟨1, _⟩ => ⟨(i 1).val, (i 1).isLt⟩
theorem mm_sq_apply {φ₁ φ₂ : FTy} (l : FVec Ideal S512x64 φ₁) (r : FVec Ideal S64x64 φ₂) (i : S512x64.Idx) :
    matmul dot_S512x64_S64x64_S512x64_1_0_0_1_n_n none l r (constant S512x64 .f32 0x00000000#32) i
      = ∑ k : Fin 64, l (lidx_sq i k) * r (ridx_sq i k) := by
  simp only [matmul]
  rw [Ideal.matmul_constant_zero_apply, ← Equiv.sum_comp (ValueIdx.contrEquiv1 dot_S512x64_S64x64_S512x64_1_0_0_1_n_n 64 rfl rfl).symm]
  refine Finset.sum_congr rfl fun k _ => ?_
  have hk := ValueIdx.contrEquiv1_symm_val dot_S512x64_S64x64_S512x64_1_0_0_1_n_n 64 rfl rfl k
  have el : dot_S512x64_S64x64_S512x64_1_0_0_1_n_n.lhsIdx i ((ValueIdx.contrEquiv1 dot_S512x64_S64x64_S512x64_1_0_0_1_n_n 64 rfl rfl).symm k) = lidx_sq i k := funext fun a => Fin.ext (by
    match a with
    | ⟨0, _⟩ => exact lhs_sq_0 _ _
    | ⟨1, _⟩ => exact (lhs_sq_1 _ _).trans hk)
  have er : dot_S512x64_S64x64_S512x64_1_0_0_1_n_n.rhsIdx i ((ValueIdx.contrEquiv1 dot_S512x64_S64x64_S512x64_1_0_0_1_n_n 64 rfl rfl).symm k) = ridx_sq i k := funext fun a => Fin.ext (by
    match a with
    | ⟨0, _⟩ => exact (rhs_sq_0 _ _).trans hk
    | ⟨1, _⟩ => exact rhs_sq_1 _ _)
  rw [el, er]

/-! ## A 512 x 64 tile times the 64 x 2048 factor: entry (p, q) sums tile (p, k) * factor (k, q) -/

theorem lhs_wide_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_wide_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_wide_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_wide_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl
/-- Row `i 0`, column `k` of the tile. -/
abbrev lidx_wide (i : S512x2048.Idx) (k : Fin 64) : S512x64.Idx := fun a => match a with
  | ⟨0, _⟩ => ⟨(i 0).val, (i 0).isLt⟩
  | ⟨1, _⟩ => ⟨k.val, k.isLt⟩
/-- Row `k`, column `i 1` of the factor. -/
abbrev ridx_wide (i : S512x2048.Idx) (k : Fin 64) : S64x2048.Idx := fun a => match a with
  | ⟨0, _⟩ => ⟨k.val, k.isLt⟩
  | ⟨1, _⟩ => ⟨(i 1).val, (i 1).isLt⟩
theorem mm_wide_apply {φ₁ φ₂ : FTy} (l : FVec Ideal S512x64 φ₁) (r : FVec Ideal S64x2048 φ₂) (i : S512x2048.Idx) :
    matmul dot_S512x64_S64x2048_S512x2048_1_0_0_1_n_n none l r (constant S512x2048 .f32 0x00000000#32) i
      = ∑ k : Fin 64, l (lidx_wide i k) * r (ridx_wide i k) := by
  simp only [matmul]
  rw [Ideal.matmul_constant_zero_apply, ← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx i ((ValueIdx.contrEquiv1 dot_S512x64_S64x2048_S512x2048_1_0_0_1_n_n 64 rfl rfl).symm k) = lidx_wide i k := funext fun a => Fin.ext (by
    match a with
    | ⟨0, _⟩ => exact lhs_wide_0 _ _
    | ⟨1, _⟩ => exact (lhs_wide_1 _ _).trans hk)
  have er : dot_S512x64_S64x2048_S512x2048_1_0_0_1_n_n.rhsIdx i ((ValueIdx.contrEquiv1 dot_S512x64_S64x2048_S512x2048_1_0_0_1_n_n 64 rfl rfl).symm k) = ridx_wide i k := funext fun a => Fin.ext (by
    match a with
    | ⟨0, _⟩ => exact (rhs_wide_0 _ _).trans hk
    | ⟨1, _⟩ => exact rhs_wide_1 _ _)
  rw [el, er]

/-! ## A 512 x 2048 tile of activations against the ROWS of the 2048 x 2048 weight:
       entry (p, o) sums tile (p, k) * weight (o, k) -/

theorem lhs_wt_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_wt_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_wt_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_wt_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q
/-- Row `i 0`, column `k` of the activations' tile. -/
abbrev lidx_wt (i : S512x2048.Idx) (k : Fin 2048) : S512x2048.Idx := fun a => match a with
  | ⟨0, _⟩ => ⟨(i 0).val, (i 0).isLt⟩
  | ⟨1, _⟩ => ⟨k.val, k.isLt⟩
/-- Row `i 1`, column `k` of the weight. -/
abbrev ridx_wt (i : S512x2048.Idx) (k : Fin 2048) : S2048x2048.Idx := fun a => match a with
  | ⟨0, _⟩ => ⟨(i 1).val, (i 1).isLt⟩
  | ⟨1, _⟩ => ⟨k.val, k.isLt⟩
theorem mm_wt_apply {φ₁ φ₂ : FTy} (l : FVec Ideal S512x2048 φ₁) (r : FVec Ideal S2048x2048 φ₂) (i : S512x2048.Idx) :
    matmul dot_S512x2048_S2048x2048_S512x2048_1_1_0_0_n_n none l r (constant S512x2048 .f32 0x00000000#32) i
      = ∑ k : Fin 2048, l (lidx_wt i k) * r (ridx_wt i k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx i ((ValueIdx.contrEquiv1 dot_S512x2048_S2048x2048_S512x2048_1_1_0_0_n_n 2048 rfl rfl).symm k) = lidx_wt i k := funext fun a => Fin.ext (by
    match a with
    | ⟨0, _⟩ => exact lhs_wt_0 _ _
    | ⟨1, _⟩ => exact (lhs_wt_1 _ _).trans hk)
  have er : dot_S512x2048_S2048x2048_S512x2048_1_1_0_0_n_n.rhsIdx i ((ValueIdx.contrEquiv1 dot_S512x2048_S2048x2048_S512x2048_1_1_0_0_n_n 2048 rfl rfl).symm k) = ridx_wt i k := funext fun a => Fin.ext (by
    match a with
    | ⟨0, _⟩ => exact rhs_wt_0 _ _
    | ⟨1, _⟩ => exact (rhs_wt_1 _ _).trans hk)
  rw [el, er]

end Cert.KernelIdeal.Dots

end
-- ==== Proof.Region0.lean ====
/-
  The first kernel region, read as a value over the extended reals. Its grid has 4 points; point t takes rows
  512 t .. 512 t + 511 of the 2048 x 64 factor U and of the 2048 x 2048 weight W, and the small factors whole
  (sigma and R, 64 x 64; Vt, 64 x 2048), and writes rows 512 t .. 512 t + 511 of the effective weight:
  entry (o, i) is W (o, i) + (((U sigma) R) Vt) (o, i) * 1, the three products taken left to right. A row of a
  product depends only on the same row of its left factor, so the tile of the triple product is the triple product
  of the tile, and the four tiles cover the array. The low-rank update ((U sigma) R) Vt is named here exactly as the
  reference computes it (its sixth stage), so that it can stay one array, unopened, in everything built on this.
-/
import proofs.«155626_j76733885710753_1_alg».proof.Proof.Gen.KernelIdeal.Frame
import proofs.«155626_j76733885710753_1_alg».proof.Proof.Gen.ReferenceIdeal.Read
import proofs.«155626_j76733885710753_1_alg».proof.Proof.KernelDots
import Idealize.ShloMosaic.Lib.Pipeline.Value
import Idealize.ShloMosaic.Lib.ValueIdx

set_option maxRecDepth 16384

noncomputable section

namespace Cert.KernelIdeal.Reg0

open Cert.KernelIdeal Cert.KernelIdeal.Gen Cert.KernelIdeal.Dots
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The word of the single-precision constant the kernel and the reference both scale the update by. -/
abbrev scale : EReal := Ideal.ofBits .f32 0x3F800000#32

/-! ## One tile -/

/-- The tile the body stores, at an index: the weight's entry plus the scaled entry of the triple product of the
    tile of U with sigma, R and Vt, each product a sum over its 64 contracted positions. (Narrowing to the short
    float format between the products is the identity over the extended reals.) -/
theorem tile_apply (x0 : FVec Ideal S512x64 .f32) (x1 x2 : FVec Ideal S64x64 .f32) (x3 : FVec Ideal S64x2048 .f32)
    (x4 : FVec Ideal S512x2048 .f32) (j : S512x2048.Idx) :
    k0_pay1 (F := Ideal) x0 x1 x2 x3 x4 j
      = x4 j + (∑ k : Fin 64, (∑ k' : Fin 64, (∑ k'' : Fin 64,
            x0 (lidx_sq (lidx_sq (lidx_wide j k) k') k'') * x1 (ridx_sq (lidx_sq (lidx_wide j k) k') k''))
          * x2 (ridx_sq (lidx_wide j k) k')) * x3 (ridx_wide j k)) * scale := by
  unfold k0_pay1
  show (x4 j : EReal) + (matmul dot_S512x64_S64x2048_S512x2048_1_0_0_1_n_n none
      (truncf .bf16 (matmul dot_S512x64_S64x64_S512x64_1_0_0_1_n_n none
        (truncf .bf16 (matmul dot_S512x64_S64x64_S512x64_1_0_0_1_n_n none (truncf .bf16 x0 bitsLt_bf16_f32)
          (truncf .bf16 x1 bitsLt_bf16_f32) (constant S512x64 .f32 0x00000000#32)) bitsLt_bf16_f32)
        (truncf .bf16 x2 bitsLt_bf16_f32) (constant S512x64 .f32 0x00000000#32)) bitsLt_bf16_f32)
      (truncf .bf16 x3 bitsLt_bf16_f32) (constant S512x2048 .f32 0x00000000#32) j) * scale = _
  rw [mm_wide_apply]
  refine congrArg (fun s : EReal => (x4 j : EReal) + s * scale)
    (Finset.sum_congr rfl fun k _ => congrArg (fun s : EReal => s * (x3 (ridx_wide j k) : EReal)) ?_)
  show matmul dot_S512x64_S64x64_S512x64_1_0_0_1_n_n none
      (truncf .bf16 (matmul dot_S512x64_S64x64_S512x64_1_0_0_1_n_n none (truncf .bf16 x0 bitsLt_bf16_f32)
        (truncf .bf16 x1 bitsLt_bf16_f32) (constant S512x64 .f32 0x00000000#32)) bitsLt_bf16_f32)
      (truncf .bf16 x2 bitsLt_bf16_f32) (constant S512x64 .f32 0x00000000#32) (lidx_wide j k) = _
  rw [mm_sq_apply]
  refine Finset.sum_congr rfl fun k' _ => congrArg (fun s : EReal => s * (x2 (ridx_sq (lidx_wide j k) k') : EReal)) ?_
  show matmul dot_S512x64_S64x64_S512x64_1_0_0_1_n_n none (truncf .bf16 x0 bitsLt_bf16_f32)
      (truncf .bf16 x1 bitsLt_bf16_f32) (constant S512x64 .f32 0x00000000#32) (lidx_sq (lidx_wide j k) k') = _
  rw [mm_sq_apply]
  rfl

/-! ## The whole array -/

/-- The effective weight: the weight plus the scaled low-rank update, the update as the reference computes it
    (the product of U, sigma, R and Vt taken left to right). -/
def weff (W : FVec Ideal S2048x2048 .f32) (U : FVec Ideal S2048x64 .f32) (sg R : FVec Ideal S64x64 .f32)
    (Vt : FVec Ideal S64x2048 .f32) : FVec Ideal S2048x2048 .bf16 :=
  fun i => W i + Cert.ReferenceIdeal.Read.val_main_v6 (F := Ideal) U sg R Vt i * scale

variable (V : (c : Dev nD) → (b : Ref sig .tc) → Buf (Elt Ideal) ((c : Thread nD τ).loc b))

/-- Where each window's block sits at point `t`, decided over the four points: U's, the weight's and the result's
    blocks are row block `t`; sigma, R and Vt are taken whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- U's block at point `t` is rows 512 t .. 512 t + 511 of U. -/
theorem ublk_apply (c : Dev nD) (t : Fin cfg0.N) (y : S512x64.Idx) (i : S2048x64.Idx)
    (h0 : (i 0).val = 512 * t.val + (y 0).val) (h1 : (i 1).val = (y 1).val) :
    (iblk0 V c 0 t : FVec Ideal S512x64 .f32) y = (V c main_arg3 : FVec Ideal S2048x64 .f32) i := by
  obtain ⟨e0, e1, -⟩ := idx_facts t
  unfold iblk0
  rw [View.read_apply]
  show V c main_arg3 _ = V c main_arg3 _
  refine congrArg (V c main_arg3) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 64 + 1 * (y 1).val = (i 1).val; rw [e1, h1]; omega

/-- sigma's block at every point is sigma. -/
theorem sblk_apply (c : Dev nD) (t : Fin cfg0.N) (y : S64x64.Idx) (i : S64x64.Idx)
    (h0 : (i 0).val = (y 0).val) (h1 : (i 1).val = (y 1).val) :
    (iblk0 V c 1 t : FVec Ideal S64x64 .f32) y = (V c main_arg4 : FVec Ideal S64x64 .f32) i := by
  obtain ⟨-, -, e0, e1, -⟩ := idx_facts t
  unfold iblk0
  rw [View.read_apply]
  show V c main_arg4 _ = V c main_arg4 _
  refine congrArg (V c main_arg4) (funext fun a => Fin.ext ?_)
  match a with
  | ⟨0, _⟩ => show win0_1.index t (0 : Fin 2) * 64 + 1 * (y 0).val = (i 0).val; rw [e0, h0]; omega
  | ⟨1, _⟩ => show win0_1.index t (1 : Fin 2) * 64 + 1 * (y 1).val = (i 1).val; rw [e1, h1]; omega

/-- R's block at every point is R. -/
theorem rblk_apply (c : Dev nD) (t : Fin cfg0.N) (y : S64x64.Idx) (i : S64x64.Idx)
    (h0 : (i 0).val = (y 0).val) (h1 : (i 1).val = (y 1).val) :
    (iblk0 V c 2 t : FVec Ideal S64x64 .f32) y = (V c main_arg5 : FVec Ideal S64x64 .f32) i := by
  obtain ⟨-, -, -, -, e0, e1, -⟩ := idx_facts t
  unfold iblk0
  rw [View.read_apply]
  show V c main_arg5 _ = V c main_arg5 _
  refine congrArg (V c main_arg5) (funext fun a => Fin.ext ?_)
  match a with
  | ⟨0, _⟩ => show win0_2.index t (0 : Fin 2) * 64 + 1 * (y 0).val = (i 0).val; rw [e0, h0]; omega
  | ⟨1, _⟩ => show win0_2.index t (1 : Fin 2) * 64 + 1 * (y 1).val = (i 1).val; rw [e1, h1]; omega

/-- Vt's block at every point is Vt. -/
theorem vblk_apply (c : Dev nD) (t : Fin cfg0.N) (y : S64x2048.Idx) (i : S64x2048.Idx)
    (h0 : (i 0).val = (y 0).val) (h1 : (i 1).val = (y 1).val) :
    (iblk0 V c 3 t : FVec Ideal S64x2048 .f32) y = (V c main_arg6 : FVec Ideal S64x2048 .f32) i := by
  obtain ⟨-, -, -, -, -, -, e0, e1, -⟩ := idx_facts t
  unfold iblk0
  rw [View.read_apply]
  show V c main_arg6 _ = V c main_arg6 _
  refine congrArg (V c main_arg6) (funext fun a => Fin.ext ?_)
  match a with
  | ⟨0, _⟩ => show win0_3.index t (0 : Fin 2) * 64 + 1 * (y 0).val = (i 0).val; rw [e0, h0]; omega
  | ⟨1, _⟩ => show win0_3.index t (1 : Fin 2) * 2048 + 1 * (y 1).val = (i 1).val; rw [e1, h1]; omega

/-- The weight's block at point `t` is rows 512 t .. 512 t + 511 of the weight. -/
theorem wblk_apply (c : Dev nD) (t : Fin cfg0.N) (y : S512x2048.Idx) (i : S2048x2048.Idx)
    (h0 : (i 0).val = 512 * t.val + (y 0).val) (h1 : (i 1).val = (y 1).val) :
    (iblk0 V c 4 t : FVec Ideal S512x2048 .f32) y = (V c main_arg1 : FVec Ideal S2048x2048 .f32) i := by
  obtain ⟨-, -, -, -, -, -, -, -, e0, e1, -⟩ := idx_facts t
  unfold iblk0
  rw [View.read_apply]
  show V c main_arg1 _ = V c main_arg1 _
  refine congrArg (V c main_arg1) (funext fun a => Fin.ext ?_)
  match a with
  | ⟨0, _⟩ => show win0_4.index t (0 : Fin 2) * 512 + 1 * (y 0).val = (i 0).val; rw [e0, h0]; omega
  | ⟨1, _⟩ => show win0_4.index t (1 : Fin 2) * 2048 + 1 * (y 1).val = (i 1).val; rw [e1, h1]; omega

/-- WHAT POINT `t` WRITES BACK is block `t` of the effective weight of the five arrays the region found: the tile of
    the triple product is the triple product of U's tile, read against the reference's three stages one sum at a time. -/
theorem flushed_eq (c : Dev nD) (t : Fin cfg0.N) :
    (dat0 V c).flushed 5 t
      = ((cfg0.win 5).blk t).view.read (Elt Ideal)
          (weff (V c main_arg1) (V c main_arg3) (V c main_arg4) (V c main_arg5) (V c main_arg6)) := by
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S512x64) hz, View.ld_unit_zero (S := S64x64) hz, View.ld_unit_zero (S := S64x2048) hz,
    View.ld_unit_zero (S := S512x2048) hz]
  funext j
  show k0_pay1 (F := Ideal) (iblk0 V c 0 t) (iblk0 V c 1 t) (iblk0 V c 2 t) (iblk0 V c 3 t) (iblk0 V c 4 t) j
    = weff (V c main_arg1) (V c main_arg3) (V c main_arg4) (V c main_arg5) (V c main_arg6) (((cfg0.win 5).blk t).view.emb j)
  have hJ0 : ((((cfg0.win 5).blk t).view.emb j) 0).val = 512 * t.val + (j 0).val := by
    show win0_5.index t (0 : Fin 2) * 512 + 1 * (j 0).val = _; rw [e0]; omega
  have hJ1 : ((((cfg0.win 5).blk t).view.emb j) 1).val = (j 1).val := by
    show win0_5.index t (1 : Fin 2) * 2048 + 1 * (j 1).val = _; rw [e1]; omega
  refine (tile_apply (iblk0 V c 0 t) (iblk0 V c 1 t) (iblk0 V c 2 t) (iblk0 V c 3 t) (iblk0 V c 4 t) j).trans ?_
  unfold weff
  refine congrArg₂ (· + ·) (wblk_apply V c t _ _ hJ0 hJ1) (congrArg (fun s : EReal => s * scale) ?_)
  rw [Cert.ReferenceIdeal.Read.val_main_v6_apply]
  refine Finset.sum_congr rfl fun k _ => congrArg₂ (· * ·) ?_ (vblk_apply V c t _ _ rfl hJ1)
  rw [Cert.ReferenceIdeal.Read.val_main_v5_apply]
  refine Finset.sum_congr rfl fun k' _ => congrArg₂ (· * ·) ?_ (rblk_apply V c t _ _ rfl rfl)
  rw [Cert.ReferenceIdeal.Read.val_main_v4_apply]
  exact Finset.sum_congr rfl fun k'' _ => congrArg₂ (· * ·) (ublk_apply V c t _ _ hJ0 rfl) (sblk_apply V c t _ _ rfl rfl)

/-- An index of the effective weight is in point `t`'s block iff each coordinate is in the block's range on its axis. -/
theorem mem_blk (t : Fin cfg0.N) (i : S2048x2048.Idx) :
    i ∈ ((cfg0.win 5).blk t).view.set
      ↔ ∀ a : Fin 2, win0_5.index t a * S512x2048.size a ≤ (i a).val ∧ (i a).val < win0_5.index t a * S512x2048.size a + S512x2048.size a := by
  show i ∈ ((View.whole main_v0).slice (win0_5.rect t)).set ↔ _
  rw [View.set_slice_whole, Rect.mem_set_unit]
  exact Iff.rfl

/-- Every row of the effective weight is in some point's block: row r in block r / 512. -/
theorem cover (i : S2048x2048.Idx) : ∃ t : Fin cfg0.N, (cfg0.win 5).flush t = true ∧ i ∈ ((cfg0.win 5).blk t).view.set := by
  have hi0 : (i 0).val < 2048 := (i 0).isLt
  have hi1 : (i 1).val < 2048 := (i 1).isLt
  have hN : cfg0.N = 4 := N_0
  let t : Fin cfg0.N := ⟨(i 0).val / 512, by rw [hN]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [e0]; show (i 0).val / 512 * 512 ≤ (i 0).val ∧ (i 0).val < (i 0).val / 512 * 512 + 512; omega
  | ⟨1, _⟩ =>
    show win0_5.index t (1 : Fin 2) * 2048 ≤ (i 1).val ∧ (i 1).val < win0_5.index t (1 : Fin 2) * 2048 + 2048
    rw [e1]; omega

/-- THE EFFECTIVE WEIGHT after the region: the weight plus the scaled low-rank update of the arrays the region found. -/
theorem final (c : Dev nD) :
    (dat0 V c).arrAt 5 cfg0.N
      = weff (V c main_arg1) (V c main_arg3) (V c main_arg4) (V c main_arg5) (V c main_arg6) :=
  (dat0 V c).arrAt_eq_of_cover 5 _ (fun t _ => flushed_eq V c t) cover

end Cert.KernelIdeal.Reg0

end
-- ==== Proof.Region1.lean ====
/-
  The second kernel region, read as a value over the extended reals. Its grid has 16 points; point t takes rows
  512 t .. 512 t + 511 of the 8192 x 2048 activations, the whole 2048 x 2048 weight and the one bias row, and writes
  rows 512 t .. 512 t + 511 of the result: entry (r, o) is the sum over k of activations (r, k) * weight (o, k),
  plus bias (0, o) — the product with the transposed weight, the bias laid along every row. The sixteen tiles
  cover the result array, so after the region the array is that function of the three arrays the region found.
-/
import proofs.«155626_j76733885710753_1_alg».proof.Proof.Gen.KernelIdeal.Frame
import proofs.«155626_j76733885710753_1_alg».proof.Proof.KernelDots
import Idealize.ShloMosaic.Lib.Pipeline.Value
import Idealize.ShloMosaic.Lib.ValueIdx

set_option maxRecDepth 16384

noncomputable section

namespace Cert.KernelIdeal.Reg1

open Cert.KernelIdeal Cert.KernelIdeal.Gen Cert.KernelIdeal.Dots
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## One tile -/

/-- The bias row's entry above column `j 1`. -/
abbrev brow (j : S512x2048.Idx) : S1x2048.Idx := fun a => match a with
  | ⟨0, _⟩ => ⟨0, Nat.one_pos⟩
  | ⟨1, _⟩ => ⟨(j 1).val, (j 1).isLt⟩

/-- The tile the body stores, at an index: the row of the activations' tile against the row of the weight, plus the
    bias entry of the column. (Narrowing to the short float format and the same-shape casts are the identity.) -/
theorem tile_apply (x0 : FVec Ideal S512x2048 .f32) (x1 : FVec Ideal S2048x2048 .bf16) (x2 : FVec Ideal S1x2048 .f32)
    (j : S512x2048.Idx) :
    k1_pay1 (F := Ideal) x0 x1 x2 j = (∑ k : Fin 2048, x0 (lidx_wt j k) * x1 (ridx_wt j k)) + x2 (brow j) := by
  unfold k1_pay1
  simp only [shapeCast_self]
  show FloatOps.addf (matmul dot_S512x2048_S2048x2048_S512x2048_1_1_0_0_n_n none (truncf .bf16 x0 bitsLt_bf16_f32) x1
      (constant S512x2048 .f32 0x00000000#32) j) (broadcastTo S512x2048 x2 broadcasts_S1x2048_S512x2048 j) = _
  rw [Ideal.addf_def, mm_wt_apply, broadcastTo_apply x2 broadcasts_S1x2048_S512x2048 j (brow j) (fun a => by
    match a with
    | ⟨0, _⟩ => show 0 = if (1 : Nat) = 1 then 0 else _; rw [if_pos rfl]
    | ⟨1, _⟩ => show (j 1).val = if (2048 : Nat) = 1 then 0 else _; rw [if_neg (by decide)]; rfl)]
  rfl

/-! ## The whole array -/

/-- Row `j 0`, column `k` of the activations. -/
abbrev xrow (j : S8192x2048.Idx) (k : Fin 2048) : S8192x2048.Idx := fun a => match a with
  | ⟨0, _⟩ => ⟨(j 0).val, (j 0).isLt⟩
  | ⟨1, _⟩ => ⟨k.val, k.isLt⟩
/-- Row `j 1`, column `k` of the weight. -/
abbrev wrow (j : S8192x2048.Idx) (k : Fin 2048) : S2048x2048.Idx := fun a => match a with
  | ⟨0, _⟩ => ⟨(j 1).val, (j 1).isLt⟩
  | ⟨1, _⟩ => ⟨k.val, k.isLt⟩
/-- The bias entry above column `j 1`. -/
abbrev bcol (j : S8192x2048.Idx) : S1x2048.Idx := fun a => match a with
  | ⟨0, _⟩ => ⟨0, Nat.one_pos⟩
  | ⟨1, _⟩ => ⟨(j 1).val, (j 1).isLt⟩

/-- The affine map of the region: activations times the transposed weight, plus the bias row on every row. -/
def affine (X : FVec Ideal S8192x2048 .f32) (Wt : FVec Ideal S2048x2048 .bf16) (b : FVec Ideal S1x2048 .f32) :
    FVec Ideal S8192x2048 .f32 :=
  fun j => (∑ k : Fin 2048, X (xrow j k) * Wt (wrow j k)) + b (bcol j)

variable (V : (c : Dev nD) → (b : Ref sig .tc) → Buf (Elt Ideal) ((c : Thread nD τ).loc b))

/-- Where each window's block sits at point `t`, decided over the sixteen points: the activations' and the result's
    blocks are row block `t`; the weight and the bias are taken whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The activations' block at point `t` is rows 512 t .. 512 t + 511 of the array. -/
theorem xblk_apply (c : Dev nD) (t : Fin cfg1.N) (y : S512x2048.Idx) (i : S8192x2048.Idx)
    (h0 : (i 0).val = 512 * t.val + (y 0).val) (h1 : (i 1).val = (y 1).val) :
    (iblk1 V c 0 t : FVec Ideal S512x2048 .f32) y = (V c main_v1 : FVec Ideal S8192x2048 .f32) i := by
  obtain ⟨e0, e1, -⟩ := idx_facts t
  unfold iblk1
  rw [View.read_apply]
  show V c main_v1 _ = V c main_v1 _
  refine congrArg (V c main_v1) (funext fun a => Fin.ext ?_)
  match a with
  | ⟨0, _⟩ => show win1_0.index t (0 : Fin 2) * 512 + 1 * (y 0).val = (i 0).val; rw [e0, h0]; omega
  | ⟨1, _⟩ => show win1_0.index t (1 : Fin 2) * 2048 + 1 * (y 1).val = (i 1).val; rw [e1, h1]; omega

/-- The weight's block at every point is the whole array. -/
theorem wblk_apply (c : Dev nD) (t : Fin cfg1.N) (y : S2048x2048.Idx) (i : S2048x2048.Idx)
    (h0 : (i 0).val = (y 0).val) (h1 : (i 1).val = (y 1).val) :
    (iblk1 V c 1 t : FVec Ideal S2048x2048 .bf16) y = (V c main_v0 : FVec Ideal S2048x2048 .bf16) i := by
  obtain ⟨-, -, e0, e1, -⟩ := idx_facts t
  unfold iblk1
  rw [View.read_apply]
  show V c main_v0 _ = V c main_v0 _
  refine congrArg (V c main_v0) (funext fun a => Fin.ext ?_)
  match a with
  | ⟨0, _⟩ => show win1_1.index t (0 : Fin 2) * 2048 + 1 * (y 0).val = (i 0).val; rw [e0, h0]; omega
  | ⟨1, _⟩ => show win1_1.index t (1 : Fin 2) * 2048 + 1 * (y 1).val = (i 1).val; rw [e1, h1]; omega

/-- The bias row's block at every point is the whole row. -/
theorem bblk_apply (c : Dev nD) (t : Fin cfg1.N) (y : S1x2048.Idx) (i : S1x2048.Idx)
    (h0 : (i 0).val = (y 0).val) (h1 : (i 1).val = (y 1).val) :
    (iblk1 V c 2 t : FVec Ideal S1x2048 .f32) y = (V c main_v2 : FVec Ideal S1x2048 .f32) i := by
  obtain ⟨-, -, -, -, e0, e1, -⟩ := idx_facts t
  unfold iblk1
  rw [View.read_apply]
  show V c main_v2 _ = V c main_v2 _
  refine congrArg (V c main_v2) (funext fun a => Fin.ext ?_)
  match a with
  | ⟨0, _⟩ => show win1_2.index t (0 : Fin 2) * 1 + 1 * (y 0).val = (i 0).val; rw [e0, h0]; omega
  | ⟨1, _⟩ => show win1_2.index t (1 : Fin 2) * 2048 + 1 * (y 1).val = (i 1).val; rw [e1, h1]; omega

/-- WHAT POINT `t` WRITES BACK is block `t` of the affine map of the three arrays the region found. -/
theorem flushed_eq (c : Dev nD) (t : Fin cfg1.N) :
    (dat1 V c).flushed 3 t
      = ((cfg1.win 3).blk t).view.read (Elt Ideal) (affine (V c main_v1) (V c main_v0) (V c main_v2)) := by
  obtain ⟨-, -, -, -, -, -, e0, e1⟩ := idx_facts t
  show (cfg1.win 3).cut (grid1.coords t) ((dat1 V c).after 3 t) = _
  rw [after1_3]
  unfold out1_3
  rw [View.canon_unit_zero hz]
  simp only [View.ld_unit_zero (S := S512x2048) hz, View.ld_unit_zero (S := S2048x2048) hz, View.ld_unit_zero (S := S1x2048) hz]
  funext j
  show k1_pay1 (F := Ideal) (iblk1 V c 0 t) (iblk1 V c 1 t) (iblk1 V c 2 t) j
    = affine (V c main_v1) (V c main_v0) (V c main_v2) (((cfg1.win 3).blk t).view.emb j)
  have hJ0 : ((((cfg1.win 3).blk t).view.emb j) 0).val = 512 * t.val + (j 0).val := by
    show win1_3.index t (0 : Fin 2) * 512 + 1 * (j 0).val = _; rw [e0]; omega
  have hJ1 : ((((cfg1.win 3).blk t).view.emb j) 1).val = (j 1).val := by
    show win1_3.index t (1 : Fin 2) * 2048 + 1 * (j 1).val = _; rw [e1]; omega
  refine (tile_apply (iblk1 V c 0 t) (iblk1 V c 1 t) (iblk1 V c 2 t) j).trans ?_
  unfold affine
  refine congrArg₂ (· + ·) (Finset.sum_congr rfl fun k _ => congrArg₂ (· * ·) ?_ ?_) ?_
  · exact xblk_apply V c t _ _ hJ0 rfl
  · exact wblk_apply V c t _ _ hJ1 rfl
  · exact bblk_apply V c t _ _ rfl hJ1

/-- An index of the result array is in point `t`'s block iff each coordinate is in the block's range on its axis. -/
theorem mem_blk (t : Fin cfg1.N) (i : S8192x2048.Idx) :
    i ∈ ((cfg1.win 3).blk t).view.set
      ↔ ∀ a : Fin 2, win1_3.index t a * S512x2048.size a ≤ (i a).val ∧ (i a).val < win1_3.index t a * S512x2048.size a + S512x2048.size a := by
  show i ∈ ((View.whole main_v3).slice (win1_3.rect t)).set ↔ _
  rw [View.set_slice_whole, Rect.mem_set_unit]
  exact Iff.rfl

/-- Every row of the result is in some point's block: row r in block r / 512. -/
theorem cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  have hN : cfg1.N = 16 := N_1
  let t : Fin cfg1.N := ⟨(i 0).val / 512, by rw [hN]; omega⟩
  obtain ⟨-, -, -, -, -, -, e0, e1⟩ := idx_facts t
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    rw [e0]; show (i 0).val / 512 * 512 ≤ (i 0).val ∧ (i 0).val < (i 0).val / 512 * 512 + 512; omega
  | ⟨1, _⟩ =>
    show win1_3.index t (1 : Fin 2) * 2048 ≤ (i 1).val ∧ (i 1).val < win1_3.index t (1 : Fin 2) * 2048 + 2048
    rw [e1]; omega

/-- THE RESULT ARRAY after the region: the affine map of the activations, the weight and the bias row as the region
    found them. -/
theorem final (c : Dev nD) :
    (dat1 V c).arrAt 3 cfg1.N = affine (V c main_v1) (V c main_v0) (V c main_v2) :=
  (dat1 V c).arrAt_eq_of_cover 3 _ (fun t _ => flushed_eq V c t) cover

end Cert.KernelIdeal.Reg1

end
-- ==== Proof.KernelValue.lean ====
/-
  The kernel program's result as one function of its seven arguments, over the extended reals. @main is: the first
  region (the effective weight), two reshapes (the activations [4, 2048, 2048] to [8192, 2048], the bias [2048] to
  [1, 2048]), the second region (the affine map), and a last reshape of the [8192, 2048] result back to [4, 2048, 2048].
  The buffer contents at each boundary are a fold of these steps over the launch memory; reading the fold at the result
  buffer gives the composition, each region's array by that region's value and every other buffer as it was.
-/
import proofs.«155626_j76733885710753_1_alg».proof.Proof.NamedRun
import proofs.«155626_j76733885710753_1_alg».proof.Proof.Region0
import proofs.«155626_j76733885710753_1_alg».proof.Proof.Region1
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- The kernel program's result: the affine map of the flattened activations, the effective weight and the bias row,
    laid back out as [4, 2048, 2048]. -/
def result (x : FVec Ideal S4x2048x2048 .f32) (W : FVec Ideal S2048x2048 .f32) (b : FVec Ideal S2048 .f32)
    (U : FVec Ideal S2048x64 .f32) (sg R : FVec Ideal S64x64 .f32) (Vt : FVec Ideal S64x2048 .f32) :
    FVec Ideal S4x2048x2048 .f32 :=
  shapeCast S4x2048x2048
    (Reg1.affine (shapeCast S8192x2048 x shapeCasts_S4x2048x2048_S8192x2048) (Reg0.weff W U sg R Vt)
      (shapeCast S1x2048 b shapeCasts_S2048_S1x2048))
    shapeCasts_S8192x2048_S4x2048x2048

variable (m : (ℓ : Loc nD τ sig) → Buf (Elt Ideal) ℓ) (ρ : Dev nD → PrngReg)

/-- After the last reshape the result buffer is the second region's output laid out as [4, 2048, 2048]. -/
theorem last_reshape (c : Dev nD) :
    (W4 m ρ c (Proc.devRef .tc main_v4) : FVec Ideal S4x2048x2048 .f32)
      = shapeCast S4x2048x2048 (W3 m ρ c (Proc.devRef .tc main_v3) : FVec Ideal S8192x2048 .f32) shapeCasts_S8192x2048_S4x2048x2048 := by
  show StableHlo.after hostOps2 (W3 m ρ c) (Proc.devRef .tc main_v4) = _
  after_results
  rfl

/-- At the second region's entry the activations' buffer is the argument flattened to [8192, 2048]: the first region
    does not touch the argument. -/
theorem entry_x (c : Dev nD) :
    (V2 m ρ c main_v1 : FVec Ideal S8192x2048 .f32)
      = shapeCast S8192x2048 (m ((c : Thread nD τ).loc main_arg0) : FVec Ideal S4x2048x2048 .f32) shapeCasts_S4x2048x2048_S8192x2048 := by
  show StableHlo.after hostOps1 (W1 m ρ c) (Proc.devRef .tc main_v1) = _
  after_results
  rw [W1_of_ne m ρ c main_arg0 (by decide)]
  rfl

/-- At the second region's entry the bias buffer is the argument as one row. -/
theorem entry_b (c : Dev nD) :
    (V2 m ρ c main_v2 : FVec Ideal S1x2048 .f32)
      = shapeCast S1x2048 (m ((c : Thread nD τ).loc main_arg2) : FVec Ideal S2048 .f32) shapeCasts_S2048_S1x2048 := by
  show StableHlo.after hostOps1 (W1 m ρ c) (Proc.devRef .tc main_v2) = _
  after_results
  rw [W1_of_ne m ρ c main_arg2 (by decide)]
  rfl

/-- At the second region's entry the weight buffer is what the first region left: the effective weight of the
    arguments (the two reshapes write other buffers). -/
theorem entry_w (c : Dev nD) :
    (V2 m ρ c main_v0 : FVec Ideal S2048x2048 .bf16)
      = Reg0.weff (m ((c : Thread nD τ).loc main_arg1)) (m ((c : Thread nD τ).loc main_arg3))
          (m ((c : Thread nD τ).loc main_arg4)) (m ((c : Thread nD τ).loc main_arg5)) (m ((c : Thread nD τ).loc main_arg6)) := by
  show StableHlo.after hostOps1 (W1 m ρ c) (Proc.devRef .tc main_v0) = _
  after_results
  exact (W1_arr m ρ c 5).trans (Reg0.final (V0 m ρ) c)

/-- The result buffer after the run, as the composition. -/
theorem result_eq (c : Dev nD) :
    (W4 m ρ c (Proc.devRef .tc main_v4) : FVec Ideal S4x2048x2048 .f32)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [last_reshape]
  unfold result
  refine congrArg (fun A => shapeCast S4x2048x2048 A shapeCasts_S8192x2048_S4x2048x2048) ?_
  refine ((W3_arr m ρ c 3).trans (Reg1.final (V2 m ρ) c)).trans ?_
  rw [entry_x, entry_w, entry_b]

/-- Every weakly fair execution of the kernel program terminates without a fault, its result array the composition above
    of the seven arguments and the arguments as launched. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.Named.run_named m ρ)

end Cert.KernelIdeal.Fold

end
-- ==== Proof.LinearLaw.lean ====
import Idealize.ShloMosaic.PureOps.Ideal
import Mathlib.Data.EReal.Operations
import Mathlib.Algebra.BigOperators.Group.Finset.Basic

/-!
  Arithmetic of finite sums of products in the extended reals, when every factor is a real number.
  On real numbers the extended reals' sum and product are the real ones, so a finite sum of products
  of reals is the coercion of one real sum, and identities of real arithmetic (distributivity, the
  sum of a sum) carry over. A further summand that may be infinite only ever meets commutativity and
  associativity of addition, which hold for all extended reals.
-/

namespace Cert.Law
open Idealize.ShloMosaic

/-- The coercion from the reals commutes with finite sums. -/
theorem coe_sum {ι : Type} (s : Finset ι) (x : ι → ℝ) :
    ∑ k ∈ s, ((x k : ℝ) : EReal) = ((∑ k ∈ s, x k : ℝ) : EReal) := by
  classical
  refine Finset.induction_on s ?_ ?_
  · simp
  · intro a s ha ih
    rw [Finset.sum_insert ha, Finset.sum_insert ha, ih, EReal.coe_add]

/-- A finite sum of products of real numbers, taken in the extended reals, is a real number. -/
theorem real_sum_mul {ι : Type} [Fintype ι] (f g : ι → EReal)
    (hf : ∀ k, ∃ r : ℝ, f k = (r : EReal)) (hg : ∀ k, ∃ r : ℝ, g k = (r : EReal)) :
    ∃ r : ℝ, ∑ k, f k * g k = (r : EReal) := by
  choose f' hf' using hf
  choose g' hg' using hg
  refine ⟨∑ k, f' k * g' k, ?_⟩
  simp only [hf', hg', ← EReal.coe_mul]
  exact coe_sum _ _

/-- Folding a correction into the weight before the product: with every a k, w k, d k real and "one" equal to 1,
    the row product against (w + d·1) plus b is (the product against w, plus b) plus the product against (1·d).
    b may be any extended real. -/
theorem fold_update {ι : Type} [Fintype ι] (a w d : ι → EReal) (b one : EReal) (hone : one = 1)
    (ha : ∀ k, ∃ r : ℝ, a k = (r : EReal)) (hw : ∀ k, ∃ r : ℝ, w k = (r : EReal)) (hd : ∀ k, ∃ r : ℝ, d k = (r : EReal)) :
    (∑ k, a k * (w k + d k * one)) + b = ((∑ k, a k * w k) + b) + ∑ k, a k * (one * d k) := by
  subst hone
  choose a' ha' using ha
  choose w' hw' using hw
  choose d' hd' using hd
  -- every factor is a real: move all three sums inside one coercion each
  simp only [ha', hw', hd', mul_one, one_mul, ← EReal.coe_add, ← EReal.coe_mul, coe_sum]
  -- over the reals the product distributes and the sum splits
  have hs : ∑ k, a' k * (w' k + d' k) = (∑ k, a' k * w' k) + ∑ k, a' k * d' k := by
    simp only [mul_add, Finset.sum_add_distrib]
  -- what is left is a rearrangement of three summands
  rw [hs, EReal.coe_add, add_right_comm]

/-- The single-precision word 0x3F800000 denotes the real number 1. -/
theorem one_word : Ideal.ofBits .f32 0x3F800000#32 = (1 : EReal) := by
  -- sign bit 0, exponent field 127 (the bias), fraction 0: the value is 2^23 · 2^(127 - 127 - 23)
  simp [Ideal.ofBits, Ideal.ieee]
  -- the two factors are reals, and their real product is 1
  rw [← EReal.coe_mul, ← EReal.coe_one]
  congr 1
  norm_num

end Cert.Law
-- ==== Proof.Bridge.lean ====
/-
  The two programs compute one function. At an index (b, s, o) of the result the kernel program holds
      (sum over k of x (b, s, k) * (W (o, k) + D (o, k) * 1)) + bias (o)
  and the reference
      ((sum over k of x (b, s, k) * W (o, k)) + bias (o)) + sum over k of x (b, s, k) * (1 * D (o, k)),
  D the low-rank update ((U sigma) R) Vt, the same array on both sides. The two agree by distributing x over W + D
  and regrouping the three terms. Distributivity fails among infinite extended reals, so the step needs every entry
  of x, W and D to be a real number; D is real because it is built from sums of products of the real entries of
  U, sigma, R and Vt. The bias may be any extended real.
-/
import proofs.«155626_j76733885710753_1_alg».proof.Proof.KernelValue
import proofs.«155626_j76733885710753_1_alg».proof.Proof.LinearLaw

set_option maxRecDepth 16384

noncomputable section

namespace Cert.Bridge

open Cert.KernelIdeal Cert.KernelIdeal.Gen Idealize.ShloMosaic

/-- Every entry of the array is a real number. -/
abbrev AllReal {S : Shape} (v : S.Idx → EReal) : Prop := ∀ i, ∃ r : ℝ, v i = (r : EReal)

/-- The low-rank update has real entries when its four factors do: three nested sums of products of reals. -/
theorem real_update (U : FVec Ideal S2048x64 .f32) (sg R : FVec Ideal S64x64 .f32) (Vt : FVec Ideal S64x2048 .f32)
    (hU : AllReal U) (hs : AllReal sg) (hR : AllReal R) (hV : AllReal Vt) (j : S2048x2048.Idx) :
    ∃ r : ℝ, Cert.ReferenceIdeal.Read.val_main_v6 (F := Ideal) U sg R Vt j = (r : EReal) := by
  rw [Cert.ReferenceIdeal.Read.val_main_v6_apply]
  refine Cert.Law.real_sum_mul _ _ (fun k => ?_) (fun k => hV _)
  rw [Cert.ReferenceIdeal.Read.val_main_v5_apply]
  refine Cert.Law.real_sum_mul _ _ (fun k' => ?_) (fun k' => hR _)
  rw [Cert.ReferenceIdeal.Read.val_main_v4_apply]
  exact Cert.Law.real_sum_mul _ _ (fun k'' => hU _) (fun k'' => hs _)

/-- Row (b, s) of the [4, 2048, 2048] layout is row 2048 b + s of the flattened [8192, 2048] layout. -/
abbrev flat (i : S4x2048x2048.Idx) : S8192x2048.Idx := fun a => match a with
  | ⟨0, _⟩ => ⟨(i 0).val * 2048 + (i 1).val, by
      have h0 : (i 0).val < 4 := (i 0).isLt
      have h1 : (i 1).val < 2048 := (i 1).isLt
      show (i 0).val * 2048 + (i 1).val < 8192
      omega⟩
  | ⟨1, _⟩ => ⟨(i 2).val, (i 2).isLt⟩

/-- The reference scales the update by the broadcast constant 1.0, on the left. -/
theorem scaled_update (U : FVec Ideal S2048x64 .f32) (sg R : FVec Ideal S64x64 .f32) (Vt : FVec Ideal S64x2048 .f32)
    (j : S2048x2048.Idx) :
    Cert.ReferenceIdeal.Read.val_main_v8 (F := Ideal) U sg R Vt j
      = Reg0.scale * Cert.ReferenceIdeal.Read.val_main_v6 (F := Ideal) U sg R Vt j := by
  rw [Cert.ReferenceIdeal.Read.val_main_v8_apply, Cert.ReferenceIdeal.Read.val_main_v7_apply]
  rfl

/-- THE BRIDGE: with real entries in x, W, U, sigma, R and Vt, the kernel program's result and the reference's
    result are equal at every index. -/
theorem result_apply (x : FVec Ideal S4x2048x2048 .f32) (W : FVec Ideal S2048x2048 .f32) (b : FVec Ideal S2048 .f32)
    (U : FVec Ideal S2048x64 .f32) (sg R : FVec Ideal S64x64 .f32) (Vt : FVec Ideal S64x2048 .f32)
    (hx : AllReal x) (hW : AllReal W) (hU : AllReal U) (hs : AllReal sg) (hR : AllReal R) (hV : AllReal Vt)
    (i : S4x2048x2048.Idx) :
    Fold.result x W b U sg R Vt i = Cert.ReferenceIdeal.Read.val_main_v10 (F := Ideal) x W b U sg R Vt i := by
  -- the kernel side at i: the affine map at the flattened row, each reshape read at its index
  have hK : Fold.result x W b U sg R Vt i
      = (∑ q : Fin 2048, x (Cert.ReferenceIdeal.Read.lidx_main_v0 i q)
            * (W (Cert.ReferenceIdeal.Read.ridx_main_v0 i q)
                + Cert.ReferenceIdeal.Read.val_main_v6 (F := Ideal) U sg R Vt (Cert.ReferenceIdeal.Read.ridx_main_v0 i q) * Reg0.scale))
          + b (Cert.ReferenceIdeal.Read.idx_main_v1 (Cert.ReferenceIdeal.Read.idx_main_v2 i)) := by
    unfold Fold.result
    rw [shapeCast_apply _ shapeCasts_S8192x2048_S4x2048x2048 i (flat i) (by
      rw [Shape.rowMajor_val_two, Shape.rowMajor_val_three]
      show ((i 0).val * 2048 + (i 1).val) * 2048 + (i 2).val = ((i 0).val * 2048 + (i 1).val) * 2048 + (i 2).val
      rfl)]
    unfold Reg1.affine
    refine congrArg₂ (· + ·) (Finset.sum_congr rfl fun q _ => congrArg₂ (· * ·) ?_ ?_) ?_
    · refine shapeCast_apply x shapeCasts_S4x2048x2048_S8192x2048 _ _ ?_
      rw [Shape.rowMajor_val_two, Shape.rowMajor_val_three]
      show ((i 0).val * 2048 + (i 1).val) * 2048 + q.val = ((i 0).val * 2048 + (i 1).val) * 2048 + q.val
      rfl
    · have hidx : Reg1.wrow (flat i) q = Cert.ReferenceIdeal.Read.ridx_main_v0 i q :=
        funext fun a => Fin.ext (by match a with | ⟨0, _⟩ => rfl | ⟨1, _⟩ => rfl)
      rw [hidx]
      rfl
    · refine shapeCast_apply b shapeCasts_S2048_S1x2048 _ _ ?_
      rw [Shape.rowMajor_val_two, Shape.rowMajor_val_one]
      show (i 2).val = 0 * 2048 + (i 2).val
      omega
  -- the reference side at i, one stage at a time
  have hRf : Cert.ReferenceIdeal.Read.val_main_v10 (F := Ideal) x W b U sg R Vt i
      = ((∑ q : Fin 2048, x (Cert.ReferenceIdeal.Read.lidx_main_v0 i q) * W (Cert.ReferenceIdeal.Read.ridx_main_v0 i q))
            + b (Cert.ReferenceIdeal.Read.idx_main_v1 (Cert.ReferenceIdeal.Read.idx_main_v2 i)))
          + ∑ q : Fin 2048, x (Cert.ReferenceIdeal.Read.lidx_main_v0 i q)
              * (Reg0.scale * Cert.ReferenceIdeal.Read.val_main_v6 (F := Ideal) U sg R Vt (Cert.ReferenceIdeal.Read.ridx_main_v0 i q)) := by
    rw [Cert.ReferenceIdeal.Read.val_main_v10_apply, Cert.ReferenceIdeal.Read.val_main_v3_apply,
      Cert.ReferenceIdeal.Read.val_main_v0_apply, Cert.ReferenceIdeal.Read.val_main_v2_apply,
      Cert.ReferenceIdeal.Read.val_main_v1_apply, Cert.ReferenceIdeal.Read.val_main_v9_apply]
    simp only [Ideal.addf_def]
    refine congrArg (fun s : EReal => _ + s) (Finset.sum_congr rfl fun q _ => ?_)
    rw [scaled_update]
  rw [hK, hRf]
  exact Cert.Law.fold_update
    (fun q => x (Cert.ReferenceIdeal.Read.lidx_main_v0 i q))
    (fun q => W (Cert.ReferenceIdeal.Read.ridx_main_v0 i q))
    (fun q => Cert.ReferenceIdeal.Read.val_main_v6 (F := Ideal) U sg R Vt (Cert.ReferenceIdeal.Read.ridx_main_v0 i q))
    (b (Cert.ReferenceIdeal.Read.idx_main_v1 (Cert.ReferenceIdeal.Read.idx_main_v2 i))) Reg0.scale Cert.Law.one_word
    (fun q => hx _) (fun q => hW _) (fun q => real_update U sg R Vt hU hs hR hV _)

/-- The same as an equation of arrays. -/
theorem result_eq (x : FVec Ideal S4x2048x2048 .f32) (W : FVec Ideal S2048x2048 .f32) (b : FVec Ideal S2048 .f32)
    (U : FVec Ideal S2048x64 .f32) (sg R : FVec Ideal S64x64 .f32) (Vt : FVec Ideal S64x2048 .f32)
    (hx : AllReal x) (hW : AllReal W) (hU : AllReal U) (hs : AllReal sg) (hR : AllReal R) (hV : AllReal Vt) :
    Fold.result x W b U sg R Vt = Cert.ReferenceIdeal.Read.val_main_v10 (F := Ideal) x W b U sg R Vt :=
  funext fun i => result_apply x W b U sg R Vt hx hW hU hs hR hV i

end Cert.Bridge

end
-- ==== Proof.lean ====
/-
  A low-rank-corrected linear layer, in two forms, shown equal over the extended reals.

  The kernel program folds the correction into the weight first. One grid of 4 row tiles computes the effective
  weight  W + (((U sigma) R) Vt) * 1  (U is 2048 x 64, sigma and R are 64 x 64, Vt is 64 x 2048, W is 2048 x 2048; the
  three products taken left to right); a second grid of 16 row tiles multiplies the activations x, flattened from
  [4, 2048, 2048] to [8192, 2048], by the transposed effective weight and adds the bias to every row; the result is laid
  back out as [4, 2048, 2048]. The reference computes  (x W^T + bias) + x (1 * (((U sigma) R) Vt))^T  with two full
  products. Over the extended reals a change of float format is the identity and every product is an exact sum, so at
  an index (b, s, o) the two results are
      (sum_k x (b, s, k) * (W (o, k) + D (o, k) * 1)) + bias (o)    and
      ((sum_k x (b, s, k) * W (o, k)) + bias (o)) + sum_k x (b, s, k) * (1 * D (o, k)),
  with D = ((U sigma) R) Vt the same array on both sides. They agree by distributivity and regrouping, which is where
  the precondition is used: distributivity fails among infinite extended reals, and the precondition makes every
  entry of x, W, U, sigma, R and Vt (hence of D) a real number. The bias may be any extended real.

  The pieces: each region's output array as a function of the arrays the region found (a tile of a product is the
  product of the tile; the tiles cover the array); the program's result as the composition of the two regions and the
  three reshapes, read off the buffer contents at @main's boundaries; the reference's result read one stage at a time;
  the equation of the two at every index. The three programs terminate without a fault and leave their arguments
  unchanged; the idealized kernel is the kernel's own text read over the extended reals (no rewrite was applied).
-/
import proofs.«155626_j76733885710753_1_alg».proof.Defs
import proofs.«155626_j76733885710753_1_alg».proof.Proof.Gen.Kernel
import proofs.«155626_j76733885710753_1_alg».proof.Proof.Gen.Kernel.Frame
import proofs.«155626_j76733885710753_1_alg».proof.Proof.Gen.KernelIdeal
import proofs.«155626_j76733885710753_1_alg».proof.Proof.Gen.KernelIdeal.Frame
import proofs.«155626_j76733885710753_1_alg».proof.Proof.Gen.ReferenceIdeal
import proofs.«155626_j76733885710753_1_alg».proof.Proof.Gen.ReferenceIdeal.Run
import proofs.«155626_j76733885710753_1_alg».proof.Proof.Gen.ReferenceIdeal.Read
import proofs.«155626_j76733885710753_1_alg».proof.Proof.Gen.Pre_finite_inputs
import proofs.«155626_j76733885710753_1_alg».proof.Proof.FiniteInputs
import proofs.«155626_j76733885710753_1_alg».proof.Proof.KernelValue
import proofs.«155626_j76733885710753_1_alg».proof.Proof.Bridge
import Idealize.ShloMosaic.Adequacy
import Idealize.ShloMosaic.Init

noncomputable section

namespace Cert.Proof

open Idealize.ShloMosaic Idealize.SL.Sem

/-- The kernel program, word level: it terminates without a fault and leaves its arguments unchanged. -/
theorem frame_kernel : Cert.frame_Kernel := fun m ρ _ => Cert.Kernel.Gen.frame m ρ

/-- The same program read over the extended reals. -/
theorem frame_kernel_ideal : Cert.frame_KernelIdeal := fun m ρ _ => Cert.KernelIdeal.Gen.frame m ρ

/-- The reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the seven arguments, all entries finite, both programs run and end with equal
    results: the kernel program's result is the composition of its two regions, the reference's its last stage, and
    the two are one function of real arguments. -/
theorem algebraic : Cert.algebraic_KernelIdeal_ReferenceIdeal := by
  intro m ρ m' ρ' hpre hagree
  refine ⟨fun c => Cert.KernelIdeal.Fold.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  obtain ⟨r0, r1, -, r3, r4, r5, r6⟩ := Cert.Finite.real_of_pre _ _ _ _ _ _ _ (hpre c)
  exact (Cert.ReferenceIdeal.Read.val_main_v10_eq _ _ _ _ _ _ _).trans
    (Cert.Bridge.result_eq _ _ _ _ _ _ _ r0 r1 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
